-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S50000 32) (main_arg3 : FVec F S256x256 .f32) (main_arg4 : FVec F S256 .f32) (main_arg5 : FVec F S256x256 .f32) (main_arg6 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S128 : Shape := ⟨1, ![128]⟩
abbrev S50000x1 : Shape := ⟨2, ![50000, 1]⟩
abbrev S1x128 : Shape := ⟨2, ![1, 128]⟩
abbrev S50000x128 : Shape := ⟨2, ![50000, 128]⟩
abbrev S128x256 : Shape := ⟨2, ![128, 256]⟩
abbrev S5000x128 : Shape := ⟨2, ![5000, 128]⟩
abbrev S128x1 : Shape := ⟨2, ![128, 1]⟩

abbrev nBuf : Space → Nat
  | .hbm => 132
  | .vmem => 15
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256x256, .f32⟩
  | 4 => ⟨S256, .f32⟩
  | 5 => ⟨S256x256, .f32⟩
  | 6 => ⟨S256, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S50000x256, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S_, .i32⟩
  | 39 => ⟨S850000, .i32⟩
  | 40 => ⟨S850000, .i1⟩
  | 41 => ⟨S_, .i32⟩
  | 42 => ⟨S850000, .i32⟩
  | 43 => ⟨S850000, .i32⟩
  | 44 => ⟨S850000, .i32⟩
  | 45 => ⟨S850000x1, .i32⟩
  | 46 => ⟨S850000, .f32⟩
  | 47 => ⟨S850000, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x256, .f32⟩
  | 57 => ⟨S850000x1, .f32⟩
  | 58 => ⟨S850000x256, .f32⟩
  | 59 => ⟨S850000x256, .f32⟩
  | 60 => ⟨S_, .f32⟩
  | 61 => ⟨S50000x256, .f32⟩
  | 62 => ⟨S850000x1, .i32⟩
  | 63 => ⟨S50000x256, .f32⟩
  | 64 => ⟨S1x256, .f32⟩
  | 65 => ⟨S50000x256, .f32⟩
  | 66 => ⟨S50000x256, .f32⟩
  | 67 => ⟨S_, .f32⟩
  | 68 => ⟨S50000x256, .f32⟩
  | 69 => ⟨S50000x256, .f32⟩
  | 70 => ⟨S50000x256, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000, .f32⟩
  | 80 => ⟨S_, .i32⟩
  | 81 => ⟨S850000, .i32⟩
  | 82 => ⟨S850000, .i1⟩
  | 83 => ⟨S_, .i32⟩
  | 84 => ⟨S850000, .i32⟩
  | 85 => ⟨S850000, .i32⟩
  | 86 => ⟨S850000, .i32⟩
  | 87 => ⟨S850000x1, .i32⟩
  | 88 => ⟨S850000, .f32⟩
  | 89 => ⟨S850000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x256, .f32⟩
  | 99 => ⟨S850000x1, .f32⟩
  | 100 => ⟨S850000x256, .f32⟩
  | 101 => ⟨S850000x256, .f32⟩
  | 102 => ⟨S_, .f32⟩
  | 103 => ⟨S50000x256, .f32⟩
  | 104 => ⟨S850000x1, .i32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S128, .i32⟩
  | 113 => ⟨S50000x1, .i32⟩
  | 114 => ⟨S1x128, .i32⟩
  | 115 => ⟨S50000x128, .i32⟩
  | 116 => ⟨S50000x128, .i32⟩
  | 117 => ⟨S50000x128, .i1⟩
  | 118 => ⟨S50000x128, .bf16⟩
  | 119 => ⟨S128x256, .f32⟩
  | 120 => ⟨S_, .f32⟩
  | 121 => ⟨S50000, .f32⟩
  | 122 => ⟨S_, .f32⟩
  | 123 => ⟨S128, .f32⟩
  | 124 => ⟨S50000x1, .i32⟩
  | 125 => ⟨S128, .f32⟩
  | 126 => ⟨S_, .f32⟩
  | 127 => ⟨S128, .f32⟩
  | _ => ⟨S50000x256, .f32⟩

abbrev hbmTy0_1 (i : Nat) : BufTy := match i % 128 with
  | 0 => ⟨S128, .f32⟩
  | 1 => ⟨S128x1, .f32⟩
  | 2 => ⟨S128x256, .f32⟩
  | 3 => ⟨S128x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S5000x128, .bf16⟩
  | .local _ .vmem, ⟨11, _⟩ => ⟨S5000x128, .bf16⟩
  | .local _ .vmem, ⟨12, _⟩ => ⟨S5000x256, .f32⟩
  | .local _ .vmem, ⟨13, _⟩ => ⟨S5000x256, .f32⟩
  | .local _ .vmem, ⟨14, _⟩ => ⟨S128x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_16 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  inb_S128x256_S128x256_0_0 : ∀ a, (![0, 0] : Fin 2 → Nat) a + S128x256.size a ≤ S128x256.size a
  h_S128x256 : 0 < S128x256.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x256_S128x256 : S128x256.ShapeCasts S128x256
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  scatter_S50000_S850000x1_S850000_n_0_0_1_wf : ScatterDims.WF S50000 S850000x1 S850000 [] [0] [0] 1
  dot_S5000x256_S256x256_S5000x256_1_0_0_1_n_n_wf : DotDims.WF S5000x256 S256x256 S5000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x128_S5000x256_S128x256_0_0_1_1_n_n_wf : DotDims.WF S5000x128 S5000x256 S128x256 [0] [0] [1] [1] [] []
  scatter_S128_S50000x1_S50000_n_0_0_1_wf : ScatterDims.WF S128 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x128_S5000x256_S128x256_0_0_1_1_n_n : DotDims S5000x128 S5000x256 S128x256 where
  lhsContracting := [0]
  rhsContracting := [0]
  lhsNonContracting := [1]
  rhsNonContracting := [1]
  lhsBatch := []
  rhsBatch := []
  wf := dot_S5000x128_S5000x256_S128x256_0_0_1_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v87) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v80) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S128x256.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩
abbrev S128x256 : Shape := ⟨2, ![128, 256]⟩
abbrev S50000x1 : Shape := ⟨2, ![50000, 1]⟩
abbrev S128 : Shape := ⟨1, ![128]⟩
abbrev S128x1 : Shape := ⟨2, ![128, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x256, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x1, .f32⟩
  | .hbm, ⟨58, _⟩ => ⟨S850000x256, .f32⟩
  | .hbm, ⟨59, _⟩ => ⟨S850000x256, .f32⟩
  | .hbm, ⟨60, _⟩ => ⟨S_, .f32⟩
  | .hbm, ⟨61, _⟩ => ⟨S50000x256, .f32⟩
  | .hbm, ⟨62, _⟩ => ⟨S850000x1, .i32⟩
  | .hbm, ⟨63, _⟩ => ⟨S50000x256, .f32⟩
  | .hbm, ⟨64, _⟩ => ⟨S1x256, .f32⟩
  | .hbm, ⟨65, _⟩ => ⟨S50000x256, .f32⟩
  | .hbm, ⟨66, _⟩ => ⟨S50000x256, .f32⟩
  | .hbm, ⟨67, _⟩ => ⟨S_, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000, .f32⟩
  | .hbm, ⟨89, _⟩ => ⟨S850000, .f32⟩
  | .hbm, ⟨90, _⟩ => ⟨S_, .i32⟩
  | .hbm, ⟨91, _⟩ => ⟨S850000, .i32⟩
  | .hbm, ⟨92, _⟩ => ⟨S850000, .i1⟩
  | .hbm, ⟨93, _⟩ => ⟨S_, .i32⟩
  | .hbm, ⟨94, _⟩ => ⟨S850000, .i32⟩
  | .hbm, ⟨95, _⟩ => ⟨S850000, .i32⟩
  | .hbm, ⟨96, _⟩ => ⟨S850000, .i32⟩
  | .hbm, ⟨97, _⟩ => ⟨S850000x1, .i32⟩
  | .hbm, ⟨98, _⟩ => ⟨S850000x256, .f32⟩
  | .hbm, ⟨99, _⟩ => ⟨S850000x1, .f32⟩
  | .hbm, ⟨100, _⟩ => ⟨S850000x256, .f32⟩
  | .hbm, ⟨101, _⟩ => ⟨S850000x256, .f32⟩
  | .hbm, ⟨102, _⟩ => ⟨S_, .f32⟩
  | .hbm, ⟨103, _⟩ => ⟨S50000x256, .f32⟩
  | .hbm, ⟨104, _⟩ => ⟨S850000x1, .i32⟩
  | .hbm, ⟨105, _⟩ => ⟨S50000x256, .f32⟩
  | .hbm, ⟨106, _⟩ => ⟨S1x256, .f32⟩
  | .hbm, ⟨107, _⟩ => ⟨S50000x256, .f32⟩
  | .hbm, ⟨108, _⟩ => ⟨S50000x256, .f32⟩
  | .hbm, ⟨109, _⟩ => ⟨S_, .f32⟩
  | .hbm, ⟨110, _⟩ => ⟨S50000x256, .f32⟩
  | .hbm, ⟨111, _⟩ => ⟨S50000x256, .f32⟩
  | .hbm, ⟨112, _⟩ => ⟨S_, .f32⟩
  | .hbm, ⟨113, _⟩ => ⟨S128x256, .f32⟩
  | .hbm, ⟨114, _⟩ => ⟨S50000x1, .i32⟩
  | .hbm, ⟨115, _⟩ => ⟨S128x256, .f32⟩
  | .hbm, ⟨116, _⟩ => ⟨S_, .f32⟩
  | .hbm, ⟨117, _⟩ => ⟨S50000, .f32⟩
  | .hbm, ⟨118, _⟩ => ⟨S_, .f32⟩
  | .hbm, ⟨119, _⟩ => ⟨S128, .f32⟩
  | .hbm, ⟨120, _⟩ => ⟨S50000x1, .i32⟩
  | .hbm, ⟨121, _⟩ => ⟨S128, .f32⟩
  | .hbm, ⟨122, _⟩ => ⟨S_, .f32⟩
  | .hbm, ⟨123, _⟩ => ⟨S128, .f32⟩
  | .hbm, ⟨124, _⟩ => ⟨S128, .f32⟩
  | .hbm, ⟨125, _⟩ => ⟨S128x1, .f32⟩
  | .hbm, ⟨126, _⟩ => ⟨S128x256, .f32⟩
  | .hbm, ⟨127, _⟩ => ⟨S128x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_15 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_call2_cst : Ref sig .tc := ⟨.hbm, 109, rfl⟩
abbrev main_call2_v0 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_17 : Ref sig .tc := ⟨.hbm, 116, rfl⟩
abbrev main_v84 : Ref sig .tc := ⟨.hbm, 117, rfl⟩
abbrev main_cst_18 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S128x256 : S_.BroadcastsInDim S128x256 (![] : Fin 0 → Fin S128x256.rank)
  bcast_S50000_S50000x1_0 : S50000.BroadcastsInDim S50000x1 (![0] : Fin 1 → Fin S50000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  scatter_S50000_S850000x1_S850000_n_0_0_1_wf : ScatterDims.WF S50000 S850000x1 S850000 [] [0] [0] 1
  dot_S50000x256_S256x256_S50000x256_1_0_0_1_n_n_wf : DotDims.WF S50000x256 S256x256 S50000x256 [1] [0] [0] [1] [] []
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S128x256_S50000x1_S50000x256_1_0_0_1_wf : ScatterDims.WF S128x256 S50000x1 S50000x256 [1] [0] [0] 1
  scatter_S128_S50000x1_S50000_n_0_0_1_wf : ScatterDims.WF S128 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S128x256_S50000x1_S50000x256_1_0_0_1 : ScatterDims S128x256 S50000x1 S50000x256 where
  updateWindowDims := [1]
  insertedWindowDims := [0]
  scatterDimsToOperandDims := [0]
  indexVectorDim := 1
  wf := scatter_S128x256_S50000x1_S50000x256_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf

class Facts : Prop extends Facts₀ where

variable [Facts]
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«415796_j6536940224753_1_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.Dense0.lean ====
/-
  The first dense layer's product, as the array the first pallas_call leaves.

  The call walks the 50000 rows of x in 10 blocks of 5000; at block t it multiplies rows 5000 t … 5000 t + 4999 of x by
  the whole 256 x 256 weight, into a zero accumulator, and writes the 5000 x 256 result back as block t of the output.
  A change of float format is the identity on the extended reals, so entry (r, j) of the block is the sum over k of
  x (5000 t + r, k) * W (k, j): the block is the restriction to its rows of ONE function of the two arrays,
  rowProd x W (n, j) = sum over k of x (n, k) * W (k, j), and the ten blocks tile the 50000 rows, so the output array
  ends as rowProd of the two arrays the call found.
-/
import proofs.«415796_j6536940224753_1_alg».proof.Proof.Gen.KernelIdeal.Frame
import proofs.«415796_j6536940224753_1_alg».proof.Proof.LibPlainAny
import Idealize.ShloMosaic.Lib.Pipeline.Value
import Idealize.ShloMosaic.Lib.ValueIdx

set_option maxRecDepth 16384

noncomputable section

namespace Cert.KernelIdeal.Dense0

open Cert.KernelIdeal Cert.KernelIdeal.Gen
open Idealize.ShloMosaic Idealize.ShloMosaic.TcCoe Idealize.ShloMosaic.ValueIdx Idealize.SL.Sem
open Idealize.ShloMosaic.Pipeline (Dat)

/-- The product of a 50000 x 256 array with a 256 x 256 array on the extended reals, entry by entry. -/
def rowProd (x : (⟨2, ![50000, 256]⟩ : Shape).Idx → EReal) (w : (⟨2, ![256, 256]⟩ : Shape).Idx → EReal) :
    (⟨2, ![50000, 256]⟩ : Shape).Idx → EReal :=
  fun i => ∑ k : Fin 256, x (ix2 (⟨(i 0).val, idx2_lt0 i⟩ : Fin 50000) k) * w (ix2 k (⟨(i 1).val, idx2_lt1 i⟩ : Fin 256))

theorem rowProd_apply (x : (⟨2, ![50000, 256]⟩ : Shape).Idx → EReal) (w : (⟨2, ![256, 256]⟩ : Shape).Idx → EReal)
    (n : Fin 50000) (j : Fin 256) : rowProd x w (ix2 n j) = ∑ k : Fin 256, x (ix2 n k) * w (ix2 k j) := rfl

/-- What the body stores, at entry (r, j) of the block: the sum over k of the row block's (r, k) times the weight's (k, j). -/
theorem body_apply (x0 : Vec Ideal S5000x256 .f32) (x1 : Vec Ideal S256x256 .f32) (r : Fin 5000) (j : Fin 256) :
    k0_pay1 (F := Ideal) x0 x1 (ix2 r j) = ∑ k : Fin 256, x0 (ix2 r k) * x1 (ix2 k j) := by
  unfold k0_pay1
  exact Cert.LibPlainAny.matmul_plain_zero_any 5000 256 256 (truncf .bf16 x0 bitsLt_bf16_f32) (truncf .bf16 x1 bitsLt_bf16_f32) r j

theorem hz : (![0, 0] : Fin 2 → Nat) = fun _ => 0 := funext fun a => by fin_cases a <;> rfl

/-- The printed index maps over the grid: the row block and the output block sit at block row t, the weight at (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- Row r of block t is row 5000 t + r of the array. -/
def rowOf (t : Fin cfg0.N) (r : Fin 5000) : Fin 50000 :=
  ⟨t.val * 5000 + r.val, by have := t.isLt; have : cfg0.N = 10 := N_0; have := r.isLt; omega⟩

/-- The row block at point t, entry (r, k), is the array's entry (5000 t + r, k). -/
theorem xblk_apply (c : Dev nD) (t : Fin cfg0.N) (r : Fin 5000) (k : Fin 256) :
    iblk0 V c 0 t (ix2 r k) = V c main_arg0 (ix2 (rowOf t r) k) := by
  obtain ⟨e0, e1, -, -, -, -⟩ := idx_facts t
  show V c main_arg0 (((cfg0.win 0).blk t).view.emb (ix2 r k)) = V c main_arg0 (ix2 (rowOf t r) k)
  refine congrArg (V c main_arg0) ?_
  funext a; apply Fin.ext
  match a with
  | ⟨0, _⟩ => show win0_0.index t (0 : Fin 2) * 5000 + 1 * r.val = t.val * 5000 + r.val; omega
  | ⟨1, _⟩ => show win0_0.index t (1 : Fin 2) * 256 + 1 * k.val = k.val; omega

/-- The weight block at every point is the whole weight array. -/
theorem wblk_apply (c : Dev nD) (t : Fin cfg0.N) (k : Fin 256) (j : Fin 256) :
    iblk0 V c 1 t (ix2 k j) = V c main_arg3 (ix2 k j) := by
  obtain ⟨-, -, e2, e3, -, -⟩ := idx_facts t
  show V c main_arg3 (((cfg0.win 1).blk t).view.emb (ix2 k j)) = V c main_arg3 (ix2 k j)
  refine congrArg (V c main_arg3) ?_
  funext a; apply Fin.ext
  match a with
  | ⟨0, _⟩ => show win0_1.index t (0 : Fin 2) * 256 + 1 * k.val = k.val; omega
  | ⟨1, _⟩ => show win0_1.index t (1 : Fin 2) * 256 + 1 * j.val = j.val; omega

/-- WHAT POINT t WRITES BACK is block t of rowProd of the two arrays the call found. -/
theorem flushed_eq (c : Dev nD) (t : Fin cfg0.N) :
    (dat0 (F := Ideal) V c).flushed 2 t
      = ((cfg0.win 2).blk t).view.read (Elt Ideal) (rowProd (V c main_arg0) (V c main_arg3)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x256) hz]
  funext j
  obtain ⟨r, q, rfl⟩ : ∃ (r : Fin 5000) (q : Fin 256), j = ix2 r q := ⟨j 0, j 1, eq_ix2 j⟩
  refine (body_apply (iblk0 V c 0 t) (iblk0 V c 1 t) r q).trans ?_
  obtain ⟨-, -, -, -, e4, e5⟩ := idx_facts t
  have h2 : ((cfg0.win 2).blk t).view.emb (ix2 r q) = ix2 (rowOf t r) q := by
    funext a; apply Fin.ext
    match a with
    | ⟨0, _⟩ => show win0_2.index t (0 : Fin 2) * 5000 + 1 * r.val = t.val * 5000 + r.val; omega
    | ⟨1, _⟩ => show win0_2.index t (1 : Fin 2) * 256 + 1 * q.val = q.val; omega
  show _ = rowProd (V c main_arg0) (V c main_arg3) (((cfg0.win 2).blk t).view.emb (ix2 r q))
  rw [h2, rowProd_apply]
  refine Finset.sum_congr rfl fun k _ => ?_
  rw [xblk_apply, wblk_apply]

/-- An index of the output array is in point t's block iff each coordinate is in the block's range on its axis. -/
theorem mem_blk (t : Fin cfg0.N) (i : S50000x256.Idx) :
    i ∈ ((cfg0.win 2).blk t).view.set ↔ ∀ a : Fin 2, win0_2.index t a * S5000x256.size a ≤ (i a).val ∧ (i a).val < win0_2.index t a * S5000x256.size a + S5000x256.size a := by
  show i ∈ ((View.whole main_v15).slice (win0_2.rect t)).set ↔ _
  rw [View.set_slice_whole, Rect.mem_set_unit]
  exact Iff.rfl

/-- The ten blocks tile the rows: row n lies in block n / 5000. -/
theorem cover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 10 := N_0
  refine ⟨⟨(i 0).val / 5000, by omega⟩, flush0_2 _, ?_⟩
  rw [mem_blk]
  obtain ⟨-, -, -, -, e4, e5⟩ := idx_facts ⟨(i 0).val / 5000, by omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ _ ∧ _ < (i 0).val / 5000 * 5000 + 5000; omega
  | ⟨1, _⟩ => show win0_2.index _ (1 : Fin 2) * 256 ≤ (i 1).val ∧ (i 1).val < win0_2.index _ (1 : Fin 2) * 256 + 256; rw [e5]; omega

/-- THE OUTPUT ARRAY after the call: rowProd of the two arrays the call found. -/
theorem final (c : Dev nD) :
    (dat0 (F := Ideal) V c).arrAt 2 cfg0.N = rowProd (V c main_arg0) (V c main_arg3) :=
  (dat0 (F := Ideal) V c).arrAt_eq_of_cover 2 (rowProd (V c main_arg0) (V c main_arg3)) (fun t _ => flushed_eq V c t) cover

end Cert.KernelIdeal.Dense0

end
-- ==== Proof.Dense1.lean ====
/-
  The second dense layer's product, as the array the second pallas_call leaves.

  The same walk as the first layer's: 10 blocks of 5000 rows of the first layer's activations, each multiplied by the whole
  second 256 x 256 weight into a zero accumulator and written back as the block of the same rows. The body first recasts the
  row block to its own shape, which changes nothing. So the output array ends as rowProd of the activations and the weight.
-/
import proofs.«415796_j6536940224753_1_alg».proof.Proof.Gen.KernelIdeal.Frame
import proofs.«415796_j6536940224753_1_alg».proof.Proof.LibPlainAny
import proofs.«415796_j6536940224753_1_alg».proof.Proof.Dense0
import Idealize.ShloMosaic.Lib.Pipeline.Value
import Idealize.ShloMosaic.Lib.ValueIdx

set_option maxRecDepth 16384

noncomputable section

namespace Cert.KernelIdeal.Dense1

open Cert.KernelIdeal Cert.KernelIdeal.Gen Cert.KernelIdeal.Dense0
open Idealize.ShloMosaic Idealize.ShloMosaic.TcCoe Idealize.ShloMosaic.ValueIdx Idealize.SL.Sem
open Idealize.ShloMosaic.Pipeline (Dat)

/-- What the body stores, at entry (r, j) of the block: the sum over k of the row block's (r, k) times the weight's (k, j)
    (the recast of the row block to its own shape is the identity). -/
theorem body_apply (x0 : Vec Ideal S5000x256 .f32) (x1 : Vec Ideal S256x256 .f32) (r : Fin 5000) (j : Fin 256) :
    k1_pay1 (F := Ideal) x0 x1 (ix2 r j) = ∑ k : Fin 256, x0 (ix2 r k) * x1 (ix2 k j) := by
  unfold k1_pay1
  rw [shapeCast_self]
  exact Cert.LibPlainAny.matmul_plain_zero_any 5000 256 256 (truncf .bf16 x0 bitsLt_bf16_f32) (truncf .bf16 x1 bitsLt_bf16_f32) r j

/-- The printed index maps over the grid: the row block and the output block sit at block row t, the weight at (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- Row r of block t is row 5000 t + r of the array. -/
def rowOf (t : Fin cfg1.N) (r : Fin 5000) : Fin 50000 :=
  ⟨t.val * 5000 + r.val, by have := t.isLt; have : cfg1.N = 10 := N_1; have := r.isLt; omega⟩

/-- The row block at point t, entry (r, k), is the array's entry (5000 t + r, k). -/
theorem xblk_apply (c : Dev nD) (t : Fin cfg1.N) (r : Fin 5000) (k : Fin 256) :
    iblk1 V c 0 t (ix2 r k) = V c main_v47 (ix2 (rowOf t r) k) := by
  obtain ⟨e0, e1, -, -, -, -⟩ := idx_facts t
  show V c main_v47 (((cfg1.win 0).blk t).view.emb (ix2 r k)) = V c main_v47 (ix2 (rowOf t r) k)
  refine congrArg (V c main_v47) ?_
  funext a; apply Fin.ext
  match a with
  | ⟨0, _⟩ => show win1_0.index t (0 : Fin 2) * 5000 + 1 * r.val = t.val * 5000 + r.val; omega
  | ⟨1, _⟩ => show win1_0.index t (1 : Fin 2) * 256 + 1 * k.val = k.val; omega

/-- The weight block at every point is the whole weight array. -/
theorem wblk_apply (c : Dev nD) (t : Fin cfg1.N) (k : Fin 256) (j : Fin 256) :
    iblk1 V c 1 t (ix2 k j) = V c main_arg5 (ix2 k j) := by
  obtain ⟨-, -, e2, e3, -, -⟩ := idx_facts t
  show V c main_arg5 (((cfg1.win 1).blk t).view.emb (ix2 k j)) = V c main_arg5 (ix2 k j)
  refine congrArg (V c main_arg5) ?_
  funext a; apply Fin.ext
  match a with
  | ⟨0, _⟩ => show win1_1.index t (0 : Fin 2) * 256 + 1 * k.val = k.val; omega
  | ⟨1, _⟩ => show win1_1.index t (1 : Fin 2) * 256 + 1 * j.val = j.val; omega

/-- WHAT POINT t WRITES BACK is block t of rowProd of the two arrays the call found. -/
theorem flushed_eq (c : Dev nD) (t : Fin cfg1.N) :
    (dat1 (F := Ideal) V c).flushed 2 t
      = ((cfg1.win 2).blk t).view.read (Elt Ideal) (rowProd (V c main_v47) (V c main_arg5)) := by
  show (cfg1.win 2).cut (grid1.coords t) ((dat1 V c).after 2 t) = _
  rw [after1_2]
  unfold out1_2
  rw [View.canon_unit_zero hz]
  simp only [View.ld_unit_zero (S := S5000x256) hz, View.ld_unit_zero (S := S256x256) hz]
  funext j
  obtain ⟨r, q, rfl⟩ : ∃ (r : Fin 5000) (q : Fin 256), j = ix2 r q := ⟨j 0, j 1, eq_ix2 j⟩
  refine (body_apply (iblk1 V c 0 t) (iblk1 V c 1 t) r q).trans ?_
  obtain ⟨-, -, -, -, e4, e5⟩ := idx_facts t
  have h2 : ((cfg1.win 2).blk t).view.emb (ix2 r q) = ix2 (rowOf t r) q := by
    funext a; apply Fin.ext
    match a with
    | ⟨0, _⟩ => show win1_2.index t (0 : Fin 2) * 5000 + 1 * r.val = t.val * 5000 + r.val; omega
    | ⟨1, _⟩ => show win1_2.index t (1 : Fin 2) * 256 + 1 * q.val = q.val; omega
  show _ = rowProd (V c main_v47) (V c main_arg5) (((cfg1.win 2).blk t).view.emb (ix2 r q))
  rw [h2, rowProd_apply]
  refine Finset.sum_congr rfl fun k _ => ?_
  rw [xblk_apply, wblk_apply]

/-- An index of the output array is in point t's block iff each coordinate is in the block's range on its axis. -/
theorem mem_blk (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v48).slice (win1_2.rect t)).set ↔ _
  rw [View.set_slice_whole, Rect.mem_set_unit]
  exact Iff.rfl

/-- The ten blocks tile the rows: row n lies in block n / 5000. -/
theorem cover (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  refine ⟨⟨(i 0).val / 5000, by omega⟩, flush1_2 _, ?_⟩
  rw [mem_blk]
  obtain ⟨-, -, -, -, e4, e5⟩ := idx_facts ⟨(i 0).val / 5000, by omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ _ ∧ _ < (i 0).val / 5000 * 5000 + 5000; omega
  | ⟨1, _⟩ => show win1_2.index _ (1 : Fin 2) * 256 ≤ (i 1).val ∧ (i 1).val < win1_2.index _ (1 : Fin 2) * 256 + 256; rw [e5]; omega

/-- THE OUTPUT ARRAY after the call: rowProd of the two arrays the call found. -/
theorem final (c : Dev nD) :
    (dat1 (F := Ideal) V c).arrAt 2 cfg1.N = rowProd (V c main_v47) (V c main_arg5) :=
  (dat1 (F := Ideal) V c).arrAt_eq_of_cover 2 (rowProd (V c main_v47) (V c main_arg5)) (fun t _ => flushed_eq V c t) cover

end Cert.KernelIdeal.Dense1

end
-- ==== Proof.LibColPool.lean ====
/-
  Column pooling by a matrix product, on the extended reals.

  1. The product of an R x G left operand with an R x C right operand, BOTH contracted on their first axis (the left
     operand transposed), accumulated into the zero array: entry (g, j) is the sum over r of left (r, g) * right (r, j),
     whatever float formats the operands carry (a change of format is the identity on the extended reals). The contraction
     index has one axis, of extent R; re-indexed by its one coordinate r, the operand indices at output (g, j) are (r, g)
     and (r, j).
  2. A one-hot weight: the one-bit word "b = g" read unsigned is 1 when the 32-bit word b, read signed, is g, and 0
     otherwise (g below 2^31); so a sum of weight * value over all rows is the sum of the values over the rows whose
     word is g, for 0 * x = 0 and 1 * x = x hold for every extended real x, infinite ones included.
  3. A sum over T * R rows is the sum over T blocks of the sums over the R rows of each block, row r of block t being
     row t * R + r.

  A record of dimension numbers printed with a program is the one of part 1 whenever its six lists are
  [0], [0], [1], [1], [], [] (the seventh field is a proof), by reflexivity.
-/
import Idealize.ShloMosaic.PureOps.Ideal.Laws
import Idealize.ShloMosaic.Lib.ValueIdx
import Idealize.ShloMosaic.Lib.Pipeline.Value

noncomputable section

open scoped BigOperators

namespace Cert.LibColPool

open Idealize.ShloMosaic Idealize.ShloMosaic.ValueIdx

/-! ## 1. A product contracted on both operands' first axis -/

/-- The dimension numbers of left^T * right: both operands contracted on axis 0, their second axes the result's two. -/
abbrev colDims (R G C : Nat)
    (wf : DotDims.WF ⟨2, ![R, G]⟩ ⟨2, ![R, C]⟩ ⟨2, ![G, C]⟩ [0] [0] [1] [1] [] []) :
    DotDims ⟨2, ![R, G]⟩ ⟨2, ![R, C]⟩ ⟨2, ![G, C]⟩ where
  lhsContracting := [0]
  rhsContracting := [0]
  lhsNonContracting := [1]
  rhsNonContracting := [1]
  lhsBatch := []
  rhsBatch := []
  wf := wf

section Dims
variable {R G C : Nat} (wf : DotDims.WF ⟨2, ![R, G]⟩ ⟨2, ![R, C]⟩ ⟨2, ![G, C]⟩ [0] [0] [1] [1] [] [])

/-- The left operand's row coordinate is the contraction index's one coordinate. -/
theorem col_lhs_row (j : (⟨2, ![G, C]⟩ : Shape).Idx) (q : (colDims R G C wf).contr.Idx) :
    ((colDims R G C wf).lhsIdx j q 0).val = (q ⟨0, Nat.one_pos⟩).val :=
  (colDims R G C wf).lhsIdx_val_of_single rfl j q
/-- The left operand's column coordinate at output index j is j's row. -/
theorem col_lhs_col (j : (⟨2, ![G, C]⟩ : Shape).Idx) (q : (colDims R G C wf).contr.Idx) :
    ((colDims R G C wf).lhsIdx j q 1).val = (j 0).val := rfl
/-- The right operand's row coordinate is the contraction index's one coordinate. -/
theorem col_rhs_row (j : (⟨2, ![G, C]⟩ : Shape).Idx) (q : (colDims R G C wf).contr.Idx) :
    ((colDims R G C wf).rhsIdx j q 0).val = (q ⟨0, Nat.one_pos⟩).val :=
  (colDims R G C wf).rhsIdx_val_of_single rfl j q
/-- The right operand's column coordinate at output index j is j's column. -/
theorem col_rhs_col (j : (⟨2, ![G, C]⟩ : Shape).Idx) (q : (colDims R G C wf).contr.Idx) :
    ((colDims R G C wf).rhsIdx j q 1).val = (j 1).val := rfl

/-- The left operand's index at output (g, j) and contraction coordinate r is (r, g). -/
theorem col_lhsIdx (g : Fin G) (j : Fin C) (r : Fin R) :
    (colDims R G C wf).lhsIdx (ix2 g j) ((contrEquiv1 (colDims R G C wf) R rfl rfl).symm r) = ix2 r g :=
  funext fun b => Fin.ext (by
    have hr := contrEquiv1_symm_val (colDims R G C wf) R rfl rfl r
    match b with
    | ⟨0, _⟩ => exact (col_lhs_row wf _ _).trans hr
    | ⟨1, _⟩ => exact col_lhs_col wf _ _)

/-- The right operand's index at output (g, j) and contraction coordinate r is (r, j). -/
theorem col_rhsIdx (g : Fin G) (j : Fin C) (r : Fin R) :
    (colDims R G C wf).rhsIdx (ix2 g j) ((contrEquiv1 (colDims R G C wf) R rfl rfl).symm r) = ix2 r j :=
  funext fun b => Fin.ext (by
    have hr := contrEquiv1_symm_val (colDims R G C wf) R rfl rfl r
    match b with
    | ⟨0, _⟩ => exact (col_rhs_row wf _ _).trans hr
    | ⟨1, _⟩ => exact col_rhs_col wf _ _)

/-- THE PRODUCT left^T * right into the zero array, operands of any formats, at entry (g, j). -/
theorem matmul_col_zero_any {φ₁ φ₂ : FTy} (A : FVec Ideal ⟨2, ![R, G]⟩ φ₁) (B : FVec Ideal ⟨2, ![R, C]⟩ φ₂)
    (g : Fin G) (j : Fin C) :
    matmul (colDims R G C wf) none A B (constant ⟨2, ![G, C]⟩ .f32 0x00000000#32) (ix2 g j)
      = ∑ r : Fin R, (A (ix2 r g) : EReal) * (B (ix2 r j) : EReal) := by
  simp only [matmul]
  rw [Ideal.matmul_constant_zero_apply, ← Equiv.sum_comp (contrEquiv1 (colDims R G C wf) R rfl rfl).symm]
  refine Finset.sum_congr rfl fun r _ => ?_
  rw [col_lhsIdx, col_rhsIdx]

end Dims

/-! ## 2. One-hot weights -/

/-- The bit "b = g" read unsigned, as an extended real: 1 when b read signed is g, else 0. -/
theorem onehot_weight (b : BitVec 32) (g : Nat) (hg : g < 2 ^ 31) :
    (((IntOp.cmpi .eq b (BitVec.ofNat 32 g)).toNat : ℝ) : EReal) = if b.toInt = (g : Int) then 1 else 0 := by
  have hgi : (BitVec.ofNat 32 g).toInt = (g : Int) := by
    rw [BitVec.toInt_eq_msb_cond, BitVec.msb_eq_false_iff_two_mul_lt.mpr (by simp [BitVec.toNat_ofNat]; omega)]
    simp [BitVec.toNat_ofNat]; omega
  by_cases h : b = BitVec.ofNat 32 g
  · subst h
    rw [if_pos hgi]
    have : IntOp.cmpi .eq (BitVec.ofNat 32 g) (BitVec.ofNat 32 g) = 1#1 := by simp [IntOp.cmpi]
    rw [this]; simp
  · have hne : ¬ b.toInt = (g : Int) := fun e => h (BitVec.eq_of_toInt_eq (e.trans hgi.symm))
    rw [if_neg hne]
    have : IntOp.cmpi .eq b (BitVec.ofNat 32 g) = 0#1 := by
      unfold IntOp.cmpi
      rw [show (b == BitVec.ofNat 32 g) = false from beq_eq_false_iff_ne.mpr h]
      rfl
    rw [this]; simp

/-- A sum of one-hot weight times value over all rows is the sum of the values over the rows whose word is g. -/
theorem sum_onehot_mul {N : Nat} (b : Fin N → BitVec 32) (h : Fin N → EReal) (g : Nat) (hg : g < 2 ^ 31) :
    ∑ n : Fin N, (((IntOp.cmpi .eq (b n) (BitVec.ofNat 32 g)).toNat : ℝ) : EReal) * h n
      = ∑ n ∈ Finset.univ.filter (fun n : Fin N => (b n).toInt = (g : Int)), h n := by
  rw [Finset.sum_filter]
  refine Finset.sum_congr rfl fun n _ => ?_
  rw [onehot_weight _ _ hg]
  split
  · rw [one_mul]
  · rw [zero_mul]

/-! ## 3. A sum over T * R rows, block by block -/

/-- Row r of block t, among T * R rows. -/
def blockRow {T R : Nat} (t : Fin T) (r : Fin R) : Fin (T * R) :=
  ⟨t.val * R + r.val, by
    have h1 : t.val * R + r.val < (t.val + 1) * R := by rw [Nat.succ_mul]; exact Nat.add_lt_add_left r.isLt _
    exact Nat.lt_of_lt_of_le h1 (Nat.mul_le_mul_right R t.isLt)⟩

/-- A sum over all rows is the sum over the blocks of the sums over each block's rows. -/
theorem sum_blocks {M : Type*} [AddCommMonoid M] (T R : Nat) (f : Fin (T * R) → M) :
    ∑ n : Fin (T * R), f n = ∑ t : Fin T, ∑ r : Fin R, f (blockRow t r) := by
  rw [← Equiv.sum_comp finProdFinEquiv f, Fintype.sum_prod_type]
  refine Finset.sum_congr rfl fun t _ => Finset.sum_congr rfl fun r _ => congrArg f (Fin.ext ?_)
  show r.val + R * t.val = t.val * R + r.val
  rw [Nat.mul_comm, Nat.add_comm]

end Cert.LibColPool

end
-- ==== Proof.Pool.lean ====
/-
  The pooling numerator, as the array the third pallas_call leaves.

  The call walks the 50000 nodes in 10 blocks of 5000 with ONE 128 x 256 output block that never moves: at the first
  block the body resets it to zero, and at every block t it adds the product weight_t^T * h_t, where weight_t is the
  5000 x 128 block of the node-to-graph weights and h_t the 5000 x 256 block of the activations (both contracted on the
  node axis). So after block t the output block holds, at (g, j), 0 plus the sum over the blocks s <= t of
  blockSum s (g, j) = sum over r < 5000 of weight (5000 s + r, g) * h (5000 s + r, j) — by induction on the block, the
  reset and the additions in block order —, it is written back once, after the last block, and it is the whole output
  array. Addition on the extended reals is associative and commutative, and the ten blocks of 5000 rows are the 50000
  rows, so the array ends as poolSum weight h (g, j) = 0 + sum over all 50000 nodes n of weight (n, g) * h (n, j).
-/
import proofs.«415796_j6536940224753_1_alg».proof.Proof.Gen.KernelIdeal.Frame
import proofs.«415796_j6536940224753_1_alg».proof.Proof.LibColPool
import Idealize.ShloMosaic.Lib.Pipeline.Value
import Idealize.ShloMosaic.Lib.ValueIdx
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.ValueIdx Idealize.SL.Sem
open Idealize.ShloMosaic.Pipeline (Dat)

/-- The weighted column sums over all 50000 nodes, onto the zero array. -/
def poolSum (wt : (⟨2, ![50000, 128]⟩ : Shape).Idx → EReal) (h : (⟨2, ![50000, 256]⟩ : Shape).Idx → EReal) :
    (⟨2, ![128, 256]⟩ : Shape).Idx → EReal :=
  fun i => 0 + ∑ n : Fin 50000, wt (ix2 n (⟨(i 0).val, idx2_lt0 i⟩ : Fin 128)) * h (ix2 n (⟨(i 1).val, idx2_lt1 i⟩ : Fin 256))

theorem poolSum_apply (wt : (⟨2, ![50000, 128]⟩ : Shape).Idx → EReal) (h : (⟨2, ![50000, 256]⟩ : Shape).Idx → EReal)
    (g : Fin 128) (j : Fin 256) : poolSum wt h (ix2 g j) = 0 + ∑ n : Fin 50000, wt (ix2 n g) * h (ix2 n j) := rfl

theorem hz : (![0, 0] : Fin 2 → Nat) = fun _ => 0 := funext fun a => by fin_cases a <;> rfl

/-! ## The body's two stores, at an entry -/

/-- The reset stores the zero block. -/
theorem reset_apply (i : S128x256.Idx) : k2_pay1 (F := Ideal) i = 0 := by
  unfold k2_pay1
  show Ideal.ofBits .f32 0x00000000#32 = 0
  exact Ideal.ofBits_zero_f32

/-- The update stores, at (g, j), what the block held there plus the sum over the block's rows r of weight (r, g) * h (r, j)
    (the recasts of the three loaded blocks to their own shapes are the identity, and so is the change of format). -/
theorem update_apply (x3 : Vec Ideal S5000x128 .bf16) (x5 : Vec Ideal S5000x256 .f32) (x9 : Vec Ideal S128x256 .f32)
    (g : Fin 128) (j : Fin 256) :
    k2_pay2 (F := Ideal) x3 x5 x9 (ix2 g j) = x9 (ix2 g j) + ∑ r : Fin 5000, x3 (ix2 r g) * x5 (ix2 r j) := by
  unfold k2_pay2
  simp only [shapeCast_self]
  refine congrArg (x9 (ix2 g j) + ·) ?_
  exact Cert.LibColPool.matmul_col_zero_any (R := 5000) (G := 128) (C := 256)
    dot_S5000x128_S5000x256_S128x256_0_0_1_1_n_n.wf x3 (truncf .bf16 x5 bitsLt_bf16_f32) g j

/-! ## What each case of the body leaves in the output block -/

/-- At a later block the body leaves the update over what the block held. -/
theorem out_B (c : Dev nD) (i : grid2.Coords) (a1 : Memref sig .tc .vmem S5000x128 .bf16) (h1 : a1.IsWhole)
    (a2 : Memref sig .tc .vmem S5000x256 .f32) (h2 : a2.IsWhole) (a3 : Memref sig .tc .vmem S128x256 .f32) (h3 : a3.IsWhole)
    (hc : ¬cond2_0 i) (x0 : Vec Ideal S5000x128 .bf16) (x1 : Vec Ideal S5000x256 .f32) (xo : Vec Ideal S128x256 .f32) :
    out2_B_2 (F := Ideal) c i a1 h1 a2 h2 a3 h3 hc x0 x1 xo = k2_pay2 x0 x1 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S5000x128) hz,
    View.ld_unit_zero (S := S5000x256) hz, View.ld_unit_zero (S := S128x256) hz]

/-- At the first block the body stores the zero block, reads it back, and leaves the update over it. -/
theorem out_A (c : Dev nD) (i : grid2.Coords) (a1 : Memref sig .tc .vmem S5000x128 .bf16) (h1 : a1.IsWhole)
    (a2 : Memref sig .tc .vmem S5000x256 .f32) (h2 : a2.IsWhole) (a3 : Memref sig .tc .vmem S128x256 .f32) (h3 : a3.IsWhole)
    (hc : cond2_0 i) (x0 : Vec Ideal S5000x128 .bf16) (x1 : Vec Ideal S5000x256 .f32) :
    out2_A_2 (F := Ideal) c i a1 h1 a2 h2 a3 h3 hc x0 x1 = k2_pay2 x0 x1 (k2_pay1 (F := Ideal)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S128x256) hz, View.readCov_unit_zero (S := S128x256) _ hz]
  simp only [View.readAt_eq_ld, h1.read_unread, h2.read_unread, View.ld_unit_zero (S := S5000x128) hz,
    View.ld_unit_zero (S := S5000x256) hz, View.ld_unit_zero (S := S128x256) hz]

/-! ## The blocks, and the running sum -/

/-- The printed index maps over the grid: the weight and activation blocks sit at block row t, the output block at (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N, _)

variable (V : (c : Dev nD) → (b : Ref sig .tc) → Buf (Elt Ideal) ((c : Thread nD τ).loc b))

/-- The node-to-graph weight array as the call finds it, at its literal type. -/
abbrev wtArr (c : Dev nD) : (⟨2, ![50000, 128]⟩ : Shape).Idx → EReal := V c main_v87
/-- The activation array as the call finds it, at its literal type. -/
abbrev hArr (c : Dev nD) : (⟨2, ![50000, 256]⟩ : Shape).Idx → EReal := V c main_v80

/-- The weight block at point t, at its literal type. -/
abbrev wblk (c : Dev nD) (t : Fin cfg2.N) : Vec Ideal S5000x128 .bf16 := iblk2 V c 0 t
/-- The activation block at point t, at its literal type. -/
abbrev hblk (c : Dev nD) (t : Fin cfg2.N) : Vec Ideal S5000x256 .f32 := iblk2 V c 1 t

/-- Row r of block t is node 5000 t + r. -/
def rowOf (t : Fin cfg2.N) (r : Fin 5000) : Fin 50000 :=
  ⟨t.val * 5000 + r.val, by have := t.isLt; have : cfg2.N = 10 := N_2; have := r.isLt; omega⟩

/-- The weight block at point t, entry (r, g), is the weight array's entry (5000 t + r, g). -/
theorem wblk_apply (c : Dev nD) (t : Fin cfg2.N) (r : Fin 5000) (g : Fin 128) :
    wblk V c t (ix2 r g) = wtArr V c (ix2 (rowOf t r) g) := by
  obtain ⟨e0, e1, -, -, -, -⟩ := idx_facts t
  show V c main_v87 (((cfg2.win 0).blk t).view.emb (ix2 r g)) = V c main_v87 (ix2 (rowOf t r) g)
  refine congrArg (V c main_v87) ?_
  funext a; apply Fin.ext
  match a with
  | ⟨0, _⟩ => show win2_0.index t (0 : Fin 2) * 5000 + 1 * r.val = t.val * 5000 + r.val; omega
  | ⟨1, _⟩ => show win2_0.index t (1 : Fin 2) * 128 + 1 * g.val = g.val; omega

/-- The activation block at point t, entry (r, j), is the activation array's entry (5000 t + r, j). -/
theorem hblk_apply (c : Dev nD) (t : Fin cfg2.N) (r : Fin 5000) (j : Fin 256) :
    hblk V c t (ix2 r j) = hArr V c (ix2 (rowOf t r) j) := by
  obtain ⟨-, -, e2, e3, -, -⟩ := idx_facts t
  show V c main_v80 (((cfg2.win 1).blk t).view.emb (ix2 r j)) = V c main_v80 (ix2 (rowOf t r) j)
  refine congrArg (V c main_v80) ?_
  funext a; apply Fin.ext
  match a with
  | ⟨0, _⟩ => show win2_1.index t (0 : Fin 2) * 5000 + 1 * r.val = t.val * 5000 + r.val; omega
  | ⟨1, _⟩ => show win2_1.index t (1 : Fin 2) * 256 + 1 * j.val = j.val; omega

/-- Block t's contribution at (g, j): the sum over its 5000 rows of weight * activation. -/
def blockSum (c : Dev nD) (g : Fin 128) (j : Fin 256) (t : Fin cfg2.N) : EReal :=
  ∑ r : Fin 5000, wtArr V c (ix2 (rowOf t r) g) * hArr V c (ix2 (rowOf t r) j)

/-- The same as a function of the block's number, zero past the grid. -/
def blockSumN (c : Dev nD) (g : Fin 128) (j : Fin 256) (n : ℕ) : EReal :=
  if h : n < cfg2.N then blockSum V c g j ⟨n, h⟩ else 0

/-- What the update adds at point t, entry (g, j), is block t's contribution. -/
theorem update_blk (c : Dev nD) (t : Fin cfg2.N) (g : Fin 128) (j : Fin 256) :
    ∑ r : Fin 5000, wblk V c t (ix2 r g) * hblk V c t (ix2 r j) = blockSum V c g j t := by
  unfold blockSum
  refine Finset.sum_congr rfl fun r _ => ?_
  rw [wblk_apply, hblk_apply]

/-- THE RUNNING SUM: after block n the output block holds, at (g, j), zero plus the contributions of blocks 0 … n. -/
theorem outsAt_apply (c : Dev nD) (g : Fin 128) (j : Fin 256) : ∀ (n : ℕ) (h : n < cfg2.N),
    outsAt2 (F := Ideal) V c n h (ix2 g j) = 0 + ∑ s ∈ Finset.range (n + 1), blockSumN V c g j s
  | 0, h => by
    rw [outsAt2_A V c ⟨0, h⟩ rfl, out_A]
    refine (update_apply (wblk V c ⟨0, h⟩) (hblk V c ⟨0, h⟩) (k2_pay1 (F := Ideal)) g j).trans ?_
    rw [reset_apply, update_blk V c ⟨0, h⟩ g j, Finset.sum_range_one]
    unfold blockSumN
    rw [dif_pos h]
  | n + 1, h => by
    have hN : cfg2.N = 10 := N_2
    have hB : ¬(⟨n + 1, h⟩ : Fin cfg2.N).val % 10 = 0 := by dsimp only; omega
    rw [outsAt2_B V c ⟨n + 1, h⟩ hB, out_B]
    refine (update_apply (wblk V c ⟨n + 1, h⟩) (hblk V c ⟨n + 1, h⟩) _ g j).trans ?_
    rw [update_blk V c ⟨n + 1, h⟩ g j]
    show outsAt2 V c n _ (ix2 g j) + _ = _
    have e : blockSumN V c g j (n + 1) = blockSum V c g j ⟨n + 1, h⟩ := by unfold blockSumN; rw [dif_pos h]
    rw [outsAt_apply c g j n, Finset.sum_range_succ _ (n + 1), add_assoc, e]

/-- The ten blocks' contributions are the sum over all 50000 nodes. -/
theorem sum_blocks_eq (c : Dev nD) (g : Fin 128) (j : Fin 256) :
    ∑ s ∈ Finset.range 10, blockSumN V c g j s = ∑ n : Fin 50000, wtArr V c (ix2 n g) * hArr V c (ix2 n j) := by
  have hN : cfg2.N = 10 := N_2
  rw [← Fin.sum_univ_eq_sum_range (fun s => blockSumN V c g j s) 10]
  refine ((Cert.LibColPool.sum_blocks 10 5000 (fun n : Fin 50000 => wtArr V c (ix2 n g) * hArr V c (ix2 n j))).trans ?_).symm
  refine Finset.sum_congr rfl fun s _ => ?_
  unfold blockSumN
  rw [dif_pos (by rw [hN]; exact s.isLt)]
  rfl

/-! ## The output array -/

/-- THE ONE WRITE-BACK, after the last block, writes poolSum of the two arrays the call found: the output block is the
    whole array, read through zero offsets. -/
theorem flushed_eq (c : Dev nD) (t : Fin cfg2.N) (hf : (cfg2.win 2).flush t = true) :
    (dat2 (F := Ideal) V c).flushed 2 t
      = ((cfg2.win 2).blk t).view.read (Elt Ideal) (poolSum (V c main_v87) (V c main_v80)) := by
  have hN : cfg2.N = 10 := N_2
  have h9 : t.val = 9 := by have := (flush2_2 t).mp hf; have := t.isLt; omega
  show (cfg2.win 2).cut (grid2.coords t) ((dat2 V c).after 2 t) = _
  rw [after2_2]
  funext y
  obtain ⟨g, q, rfl⟩ : ∃ (g : Fin 128) (q : Fin 256), y = ix2 g q := ⟨y 0, y 1, eq_ix2 y⟩
  obtain ⟨-, -, -, -, e4, e5⟩ := idx_facts t
  have h2 : ((cfg2.win 2).blk t).view.emb (ix2 g q) = ix2 g q := by
    funext a; apply Fin.ext
    match a with
    | ⟨0, _⟩ => show win2_2.index t (0 : Fin 2) * 128 + 1 * g.val = g.val; omega
    | ⟨1, _⟩ => show win2_2.index t (1 : Fin 2) * 256 + 1 * q.val = q.val; omega
  show outsAt2 V c t.val t.isLt (ix2 g q) = poolSum (V c main_v87) (V c main_v80) (((cfg2.win 2).blk t).view.emb (ix2 g q))
  rw [h2, poolSum_apply, outsAt_apply V c g q t.val t.isLt]
  refine congrArg (0 + ·) ?_
  rw [h9]
  exact sum_blocks_eq V c g q

/-- An index of the output array is in point t's block iff each coordinate is in the block's range on its axis. -/
theorem mem_blk (t : Fin cfg2.N) (i : S128x256.Idx) :
    i ∈ ((cfg2.win 2).blk t).view.set ↔ ∀ a : Fin 2, win2_2.index t a * S128x256.size a ≤ (i a).val ∧ (i a).val < win2_2.index t a * S128x256.size a + S128x256.size a := by
  show i ∈ ((View.whole main_v88).slice (win2_2.rect t)).set ↔ _
  rw [View.set_slice_whole, Rect.mem_set_unit]
  exact Iff.rfl

/-- The last block's point covers the whole output array. -/
theorem cover (i : S128x256.Idx) :
    ∃ t : Fin cfg2.N, (cfg2.win 2).flush t = true ∧ i ∈ ((cfg2.win 2).blk t).view.set := by
  have hi0 : (i 0).val < 128 := (i 0).isLt
  have hi1 : (i 1).val < 256 := (i 1).isLt
  have h9 : 9 < cfg2.N := by have hN : cfg2.N = 10 := N_2; omega
  refine ⟨⟨9, h9⟩, (flush2_2 _).mpr rfl, ?_⟩
  rw [mem_blk]
  obtain ⟨-, -, -, -, e4, e5⟩ := idx_facts ⟨9, h9⟩
  intro a
  match a with
  | ⟨0, _⟩ => show win2_2.index _ (0 : Fin 2) * 128 ≤ (i 0).val ∧ (i 0).val < win2_2.index _ (0 : Fin 2) * 128 + 128; rw [e4]; omega
  | ⟨1, _⟩ => show win2_2.index _ (1 : Fin 2) * 256 ≤ (i 1).val ∧ (i 1).val < win2_2.index _ (1 : Fin 2) * 256 + 256; rw [e5]; omega

/-- THE OUTPUT ARRAY after the call: poolSum of the weight array and the activation array the call found. -/
theorem final (c : Dev nD) :
    (dat2 (F := Ideal) V c).arrAt 2 cfg2.N = poolSum (V c main_v87) (V c main_v80) :=
  (dat2 (F := Ideal) V c).arrAt_eq_of_cover 2 (poolSum (V c main_v87) (V c main_v80)) (flushed_eq V c) cover

end Cert.KernelIdeal.Pool

end
-- ==== Proof.Stages.lean ====
/-
  The host side of the kernel's program, stretch by stretch.

  Between the three pallas_calls the program runs the same host operations as the reference: the edge lists with their
  self loops and the inverse square roots of the degrees (before the first call), one graph-convolution layer's gather,
  scaling, scatter, bias and relu after each dense product, the one-hot node-to-graph weights before the pooling call, and
  the division by the node counts after it. Each stretch's result is read here as the SAME function of its inputs that
  the reference's stage applies (the reference's stages val_main_v·), given that the value a call left in its output
  array is the reference's stage there; the buffers a stretch does not write keep their contents.
-/
import proofs.«415796_j6536940224753_1_alg».proof.Proof.Gen.KernelIdeal.Frame
import proofs.«415796_j6536940224753_1_alg».proof.Proof.RefRead
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The node-to-graph weights the program builds before the pooling call: at (n, g) the bit "node n's graph word is g",
    converted to a float. -/
def onehot (a2 : (⟨S50000, .i32⟩ : BufTy).Contents (Elt F)) : (⟨S50000x128, .bf16⟩ : BufTy).Contents (Elt F) :=
  uitofp (F := F) .bf16 (cmpi .eq (broadcastInDim S50000x128 ![0, 1] bcast_S50000x1_S50000x128_0_1 (broadcastInDim S50000x1 ![0] bcast_S50000_S50000x1_0 a2))
    (broadcastInDim S50000x128 ![0, 1] bcast_S1x128_S50000x128_0_1 (broadcastInDim S1x128 ![1] bcast_S128_S1x128_1 (iotaInDim S128 32 0))))

/-! ## Before the first call -/

/-- The source list: the edges' first row, then every node once. -/
theorem W2_v3 (c : Dev nD) : W2 m ρ c (Proc.devRef .tc main_v3) = Cert.ReferenceIdeal.ReadP.val_main_v3 (F := F) (m ((c : Thread nD τ).loc main_arg1)) := by
  show StableHlo.after hostOps0_1 (StableHlo.after hostOps0 (W0 m ρ c)) (Proc.devRef .tc main_v3) = _
  after_results
  try simp only [TRef.ofBuf, TRef.toBuf, cast_eq]
  rfl
/-- The destination list: the edges' second row, then every node once. -/
theorem W2_v6 (c : Dev nD) : W2 m ρ c (Proc.devRef .tc main_v6) = Cert.ReferenceIdeal.ReadP.val_main_v6 (F := F) (m ((c : Thread nD τ).loc main_arg1)) := by
  show StableHlo.after hostOps0_1 (StableHlo.after hostOps0 (W0 m ρ c)) (Proc.devRef .tc main_v6) = _
  after_results
  try simp only [TRef.ofBuf, TRef.toBuf, cast_eq]
  rfl
/-- The inverse square roots of the degrees (zero where the degree is not positive). -/
theorem W2_v14 (c : Dev nD) : W2 m ρ c (Proc.devRef .tc main_v14) = Cert.ReferenceIdeal.ReadP.val_main_v14 (F := F) (m ((c : Thread nD τ).loc main_arg1)) := by
  show StableHlo.after hostOps0_1 (StableHlo.after hostOps0 (W0 m ρ c)) (Proc.devRef .tc main_v14) = _
  after_results
  try simp only [TRef.ofBuf, TRef.toBuf, cast_eq]
  rfl
theorem W2_arg0 (c : Dev nD) : W2 m ρ c (Proc.devRef .tc main_arg0) = m ((c : Thread nD τ).loc main_arg0) := by
  show StableHlo.after hostOps0_1 (StableHlo.after hostOps0 (W0 m ρ c)) (Proc.devRef .tc main_arg0) = _
  after_results
theorem W2_arg2 (c : Dev nD) : W2 m ρ c (Proc.devRef .tc main_arg2) = m ((c : Thread nD τ).loc main_arg2) := by
  show StableHlo.after hostOps0_1 (StableHlo.after hostOps0 (W0 m ρ c)) (Proc.devRef .tc main_arg2) = _
  after_results
theorem W2_arg3 (c : Dev nD) : W2 m ρ c (Proc.devRef .tc main_arg3) = m ((c : Thread nD τ).loc main_arg3) := by
  show StableHlo.after hostOps0_1 (StableHlo.after hostOps0 (W0 m ρ c)) (Proc.devRef .tc main_arg3) = _
  after_results
theorem W2_arg4 (c : Dev nD) : W2 m ρ c (Proc.devRef .tc main_arg4) = m ((c : Thread nD τ).loc main_arg4) := by
  show StableHlo.after hostOps0_1 (StableHlo.after hostOps0 (W0 m ρ c)) (Proc.devRef .tc main_arg4) = _
  after_results
theorem W2_arg5 (c : Dev nD) : W2 m ρ c (Proc.devRef .tc main_arg5) = m ((c : Thread nD τ).loc main_arg5) := by
  show StableHlo.after hostOps0_1 (StableHlo.after hostOps0 (W0 m ρ c)) (Proc.devRef .tc main_arg5) = _
  after_results
theorem W2_arg6 (c : Dev nD) : W2 m ρ c (Proc.devRef .tc main_arg6) = m ((c : Thread nD τ).loc main_arg6) := by
  show StableHlo.after hostOps0_1 (StableHlo.after hostOps0 (W0 m ρ c)) (Proc.devRef .tc main_arg6) = _
  after_results

/-! ## Across the first call: what it does not write -/

theorem W3_v3 (c : Dev nD) : W3 m ρ c (Proc.devRef .tc main_v3) = W2 m ρ c (Proc.devRef .tc main_v3) := W3_of_ne m ρ c main_v3 (by decide)
theorem W3_v6 (c : Dev nD) : W3 m ρ c (Proc.devRef .tc main_v6) = W2 m ρ c (Proc.devRef .tc main_v6) := W3_of_ne m ρ c main_v6 (by decide)
theorem W3_v14 (c : Dev nD) : W3 m ρ c (Proc.devRef .tc main_v14) = W2 m ρ c (Proc.devRef .tc main_v14) := W3_of_ne m ρ c main_v14 (by decide)
theorem W3_arg2 (c : Dev nD) : W3 m ρ c (Proc.devRef .tc main_arg2) = W2 m ρ c (Proc.devRef .tc main_arg2) := W3_of_ne m ρ c main_arg2 (by decide)
theorem W3_arg4 (c : Dev nD) : W3 m ρ c (Proc.devRef .tc main_arg4) = W2 m ρ c (Proc.devRef .tc main_arg4) := W3_of_ne m ρ c main_arg4 (by decide)
theorem W3_arg5 (c : Dev nD) : W3 m ρ c (Proc.devRef .tc main_arg5) = W2 m ρ c (Proc.devRef .tc main_arg5) := W3_of_ne m ρ c main_arg5 (by decide)
theorem W3_arg6 (c : Dev nD) : W3 m ρ c (Proc.devRef .tc main_arg6) = W2 m ρ c (Proc.devRef .tc main_arg6) := W3_of_ne m ρ c main_arg6 (by decide)

/-! ## Between the first and the second call: the first layer -/

theorem W5_v3 (c : Dev nD) : W5 m ρ c (Proc.devRef .tc main_v3) = W3 m ρ c (Proc.devRef .tc main_v3) := by
  show StableHlo.after hostOps1_1 (StableHlo.after hostOps1 (W3 m ρ c)) (Proc.devRef .tc main_v3) = _
  after_results_simp
theorem W5_v6 (c : Dev nD) : W5 m ρ c (Proc.devRef .tc main_v6) = W3 m ρ c (Proc.devRef .tc main_v6) := by
  show StableHlo.after hostOps1_1 (StableHlo.after hostOps1 (W3 m ρ c)) (Proc.devRef .tc main_v6) = _
  after_results_simp
theorem W5_v14 (c : Dev nD) : W5 m ρ c (Proc.devRef .tc main_v14) = W3 m ρ c (Proc.devRef .tc main_v14) := by
  show StableHlo.after hostOps1_1 (StableHlo.after hostOps1 (W3 m ρ c)) (Proc.devRef .tc main_v14) = _
  after_results_simp
theorem W5_arg2 (c : Dev nD) : W5 m ρ c (Proc.devRef .tc main_arg2) = W3 m ρ c (Proc.devRef .tc main_arg2) := by
  show StableHlo.after hostOps1_1 (StableHlo.after hostOps1 (W3 m ρ c)) (Proc.devRef .tc main_arg2) = _
  after_results_simp
theorem W5_arg5 (c : Dev nD) : W5 m ρ c (Proc.devRef .tc main_arg5) = W3 m ρ c (Proc.devRef .tc main_arg5) := by
  show StableHlo.after hostOps1_1 (StableHlo.after hostOps1 (W3 m ρ c)) (Proc.devRef .tc main_arg5) = _
  after_results_simp
theorem W5_arg6 (c : Dev nD) : W5 m ρ c (Proc.devRef .tc main_arg6) = W3 m ρ c (Proc.devRef .tc main_arg6) := by
  show StableHlo.after hostOps1_1 (StableHlo.after hostOps1 (W3 m ρ c)) (Proc.devRef .tc main_arg6) = _
  after_results_simp
/-- THE FIRST LAYER: gather the product's rows by source, scale by the two ends' inverse root degrees, scatter-add by
    destination, add the bias, clip at zero — the reference's stage, given the product. -/
theorem W5_v47 (c : Dev nD) (x0 : (⟨S50000x256, .f32⟩ : BufTy).Contents (Elt F)) (x3 : (⟨S256x256, .f32⟩ : BufTy).Contents (Elt F))
    (h15 : W3 m ρ c (Proc.devRef .tc main_v15) = Cert.ReferenceIdeal.ReadP.val_main_v15 (F := F) x0 x3) :
    W5 m ρ c (Proc.devRef .tc main_v47)
      = Cert.ReferenceIdeal.ReadP.val_main_v47 (F := F) x0 (m ((c : Thread nD τ).loc main_arg1)) x3 (m ((c : Thread nD τ).loc main_arg4)) := by
  show StableHlo.after hostOps1_1 (StableHlo.after hostOps1 (W3 m ρ c)) (Proc.devRef .tc main_v47) = _
  after_results_simp
  try simp only [TRef.ofBuf, TRef.toBuf, cast_eq]
  rw [h15, W3_v3, W3_v6, W3_v14, W3_arg4, W2_v3, W2_v6, W2_v14, W2_arg4]
  rfl

/-! ## Across the second call: what it does not write -/

theorem W6_v3 (c : Dev nD) : W6 m ρ c (Proc.devRef .tc main_v3) = W5 m ρ c (Proc.devRef .tc main_v3) := W6_of_ne m ρ c main_v3 (by decide)
theorem W6_v6 (c : Dev nD) : W6 m ρ c (Proc.devRef .tc main_v6) = W5 m ρ c (Proc.devRef .tc main_v6) := W6_of_ne m ρ c main_v6 (by decide)
theorem W6_v14 (c : Dev nD) : W6 m ρ c (Proc.devRef .tc main_v14) = W5 m ρ c (Proc.devRef .tc main_v14) := W6_of_ne m ρ c main_v14 (by decide)
theorem W6_arg2 (c : Dev nD) : W6 m ρ c (Proc.devRef .tc main_arg2) = W5 m ρ c (Proc.devRef .tc main_arg2) := W6_of_ne m ρ c main_arg2 (by decide)
theorem W6_arg6 (c : Dev nD) : W6 m ρ c (Proc.devRef .tc main_arg6) = W5 m ρ c (Proc.devRef .tc main_arg6) := W6_of_ne m ρ c main_arg6 (by decide)

/-! ## Between the second and the third call: the second layer, and the node-to-graph weights -/

theorem W9_arg2 (c : Dev nD) : W9 m ρ c (Proc.devRef .tc main_arg2) = W6 m ρ c (Proc.devRef .tc main_arg2) := by
  show StableHlo.after hostOps2_2 (StableHlo.after hostOps2_1 (StableHlo.after hostOps2 (W6 m ρ c))) (Proc.devRef .tc main_arg2) = _
  after_results_simp
/-- Node n's graph word reaches the pooling stretch as launched. -/
theorem W6_arg2_eq (c : Dev nD) : W6 m ρ c (Proc.devRef .tc main_arg2) = m ((c : Thread nD τ).loc main_arg2) := by
  rw [W6_arg2, W5_arg2, W3_arg2, W2_arg2]

/-- THE SECOND LAYER: the same operations over the second product and the second bias — the reference's stage. -/
theorem W9_v80 (c : Dev nD) (x0 : (⟨S50000x256, .f32⟩ : BufTy).Contents (Elt F)) (x3 : (⟨S256x256, .f32⟩ : BufTy).Contents (Elt F))
    (x4 : (⟨S256, .f32⟩ : BufTy).Contents (Elt F)) (x5 : (⟨S256x256, .f32⟩ : BufTy).Contents (Elt F))
    (h48 : W6 m ρ c (Proc.devRef .tc main_v48) = Cert.ReferenceIdeal.ReadP.val_main_v48 (F := F) x0 (m ((c : Thread nD τ).loc main_arg1)) x3 x4 x5) :
    W9 m ρ c (Proc.devRef .tc main_v80)
      = Cert.ReferenceIdeal.ReadP.val_main_v80 (F := F) x0 (m ((c : Thread nD τ).loc main_arg1)) x3 x4 x5 (m ((c : Thread nD τ).loc main_arg6)) := by
  show StableHlo.after hostOps2_2 (StableHlo.after hostOps2_1 (StableHlo.after hostOps2 (W6 m ρ c))) (Proc.devRef .tc main_v80) = _
  after_results_simp
  try simp only [TRef.ofBuf, TRef.toBuf, cast_eq]
  rw [h48, W6_v3, W6_v6, W6_v14, W6_arg6, W5_v3, W5_v6, W5_v14, W5_arg6, W3_v3, W3_v6, W3_v14, W3_arg6, W2_v3, W2_v6, W2_v14, W2_arg6]
  rfl

/-- The node-to-graph weights. -/
theorem W9_v87 (c : Dev nD) : W9 m ρ c (Proc.devRef .tc main_v87) = onehot (F := F) (m ((c : Thread nD τ).loc main_arg2)) := by
  show StableHlo.after hostOps2_2 (StableHlo.after hostOps2_1 (StableHlo.after hostOps2 (W6 m ρ c))) (Proc.devRef .tc main_v87) = _
  after_results_simp
  rw [W6_arg2_eq]
  rfl

/-! ## After the third call: the division by the node counts -/

theorem W10_arg2 (c : Dev nD) : W10 m ρ c (Proc.devRef .tc main_arg2) = W9 m ρ c (Proc.devRef .tc main_arg2) := W10_of_ne m ρ c main_arg2 (by decide)

/-- THE RESULT: the pooled sums over the node counts clipped below at one — the reference's last stage, given the sums. -/
theorem W11_v97 (c : Dev nD) (x0 : (⟨S50000x256, .f32⟩ : BufTy).Contents (Elt F)) (x3 : (⟨S256x256, .f32⟩ : BufTy).Contents (Elt F))
    (x4 : (⟨S256, .f32⟩ : BufTy).Contents (Elt F)) (x5 : (⟨S256x256, .f32⟩ : BufTy).Contents (Elt F)) (x6 : (⟨S256, .f32⟩ : BufTy).Contents (Elt F))
    (h88 : W10 m ρ c (Proc.devRef .tc main_v88)
      = Cert.ReferenceIdeal.ReadP.val_main_v83 (F := F) x0 (m ((c : Thread nD τ).loc main_arg1)) (m ((c : Thread nD τ).loc main_arg2)) x3 x4 x5 x6) :
    W11 m ρ c (Proc.devRef .tc main_v97)
      = Cert.ReferenceIdeal.ReadP.val_main_v92 (F := F) x0 (m ((c : Thread nD τ).loc main_arg1)) (m ((c : Thread nD τ).loc main_arg2)) x3 x4 x5 x6 := by
  show StableHlo.after hostOps3 (W10 m ρ c) (Proc.devRef .tc main_v97) = _
  after_results_simp
  rw [h88, W10_arg2, W9_arg2, W6_arg2_eq]
  rfl

end Cert.KernelIdeal.Stages

end
-- ==== Proof.LibRowScatter.lean ====
/-
  A row scatter with addition, read at one entry on the extended reals.

  The operand is an N x C array, the updates an E x C array, the scatter indices an E x 1 array of words: update row e
  is added into operand row idx (e, 0), column by column, and a row whose index, read as a signed integer, is not in
  [0, N) is dropped.  So entry (n, j) of the result is the operand's entry plus the sum, over the edges e whose index
  is n, of update (e, j): the result index of update (e, j') is (idx (e, 0), j'), which is (n, j) exactly when
  j' = j and idx (e, 0) = n.

  A record of dimension numbers printed with a program is this one whenever its four lists are [1], [0], [0] and 1
  (the fifth field is a proof), by reflexivity; the lemma is stated for ScatterDims.rowAdd so that it serves every such
  record, whatever N, E and C.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of a row scatter: the updates' second axis is the window axis, the operand's first axis
    is the scattered one, and the index vector sits on the indices' second axis. -/
abbrev rowAdd (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-! ## The start and the window coordinate of an update index, axis by axis

The scattered axis 0 is the only one the map names, so the start on it is the index word of the update's row, read
signed, and the start on axis 1 is 0; axis 0 is inserted, so its window coordinate is 0, and axis 1 carries the update's
column. -/

section Coords
variable {N E C w : Nat} (wf : ScatterDims.WF ⟨2, ![N, C]⟩ ⟨2, ![E, 1]⟩ ⟨2, ![E, C]⟩ [1] [0] [0] 1)

/-- On the scattered axis the start is the index word of the update's row, read signed. -/
theorem rowAdd_start0 (idx : IVec ⟨2, ![E, 1]⟩ w) (jj : (⟨2, ![E, C]⟩ : Shape).Idx) :
    (rowAdd N E C wf).start jj idx 0
      = (idx (ix2 (⟨(jj 0).val, idx2_lt0 jj⟩ : Fin E) (0 : Fin 1))).toInt := by
  unfold ScatterDims.start
  rw [dif_pos (show (0 : Fin 2) ∈ (rowAdd N E C wf).scatterDimsToOperandDims from List.mem_singleton.mpr rfl)]
  have hsi : (rowAdd N E C wf).siIdx jj ⟨List.idxOf (0 : Fin 2) (rowAdd N E C wf).scatterDimsToOperandDims,
      List.idxOf_lt_length_iff.2 (List.mem_singleton.mpr rfl)⟩
        = ix2 (⟨(jj 0).val, idx2_lt0 jj⟩ : Fin E) (0 : Fin 1) := by
    funext b; refine Fin.ext ?_
    match b with
    | ⟨0, _⟩ => rfl
    | ⟨1, _⟩ => rfl
  rw [hsi]

/-- On the column axis, which the map does not name, the start is 0. -/
theorem rowAdd_start1 (idx : IVec ⟨2, ![E, 1]⟩ w) (jj : (⟨2, ![E, C]⟩ : Shape).Idx) :
    (rowAdd N E C wf).start jj idx 1 = 0 := by
  unfold ScatterDims.start
  rw [dif_neg (show ¬ (1 : Fin 2) ∈ (rowAdd N E C wf).scatterDimsToOperandDims from
    (by decide : ¬ (1 : Fin 2) ∈ ([0] : List (Fin 2))))]

/-- The scattered axis is inserted: its window coordinate is 0. -/
theorem rowAdd_window0 (jj : (⟨2, ![E, C]⟩ : Shape).Idx) :
    (rowAdd N E C wf).window jj 0 = 0 := by
  unfold ScatterDims.window
  rw [dif_neg (show ¬ (0 : Fin 2) ∈ (rowAdd N E C wf).sKept from
    (by decide : ¬ (0 : Fin 2) ∈ ([1] : List (Fin 2))))]

/-- The column axis is the one kept axis: its window coordinate is the update's column. -/
theorem rowAdd_window1 (jj : (⟨2, ![E, C]⟩ : Shape).Idx) :
    (rowAdd N E C wf).window jj 1 = (jj 1).val := by
  unfold ScatterDims.window
  rw [dif_pos (show (1 : Fin 2) ∈ (rowAdd N E C wf).sKept from
    (by decide : (1 : Fin 2) ∈ ([1] : List (Fin 2))))]
  rfl

end Coords

/-! ## Where an update lands

Update (e, j') lands at (idx (e, 0), j'), when that row is in [0, N): so it lands at (n, j) exactly when the index word
of row e, read signed, is n and j' = j. From left to right the two coordinates of the landing index are compared, the
range condition making the conversion to a natural number exact; from right to left the range condition holds because
n < N and j < C. -/

section Landing
variable {N E C w : Nat} (wf : ScatterDims.WF ⟨2, ![N, C]⟩ ⟨2, ![E, 1]⟩ ⟨2, ![E, C]⟩ [1] [0] [0] 1)

/-- An update index lands at (n, j) exactly when its row's index word, read signed, is n and its column is j. -/
theorem rowAdd_resultIdx_iff (idx : IVec ⟨2, ![E, 1]⟩ w) (jj : (⟨2, ![E, C]⟩ : Shape).Idx) (n : Fin N) (j : Fin C) :
    (rowAdd N E C wf).resultIdx? jj idx = some (ix2 n j)
      ↔ (idx (ix2 (⟨(jj 0).val, idx2_lt0 jj⟩ : Fin E) (0 : Fin 1))).toInt = (n.val : Int) ∧ (jj 1).val = j.val := by
  unfold ScatterDims.resultIdx?
  constructor
  · intro h
    by_cases hc : ∀ a, 0 ≤ (rowAdd N E C wf).start jj idx a + (rowAdd N E C wf).window jj a ∧
        (rowAdd N E C wf).start jj idx a + (rowAdd N E C wf).window jj a < (⟨2, ![N, C]⟩ : Shape).size a
    · rw [dif_pos hc] at h
      have h' := Option.some.inj h
      have h0 : ((rowAdd N E C wf).start jj idx 0 + (rowAdd N E C wf).window jj 0).toNat = n.val :=
        congrArg (fun f => (f 0).val) h'
      have h1 : ((rowAdd N E C wf).start jj idx 1 + (rowAdd N E C wf).window jj 1).toNat = j.val :=
        congrArg (fun f => (f 1).val) h'
      have c0 := (hc 0).1
      have c1 := (hc 1).1
      rw [rowAdd_start0, rowAdd_window0] at h0 c0
      rw [rowAdd_start1, rowAdd_window1] at h1 c1
      constructor <;> omega
    · rw [dif_neg hc] at h
      exact absurd h (by simp)
  · rintro ⟨hA, hB⟩
    have hn : (n.val : Int) < (N : Int) := by have := n.isLt; omega
    have hj : (j.val : Int) < (C : Int) := by have := j.isLt; omega
    have hc : ∀ a, 0 ≤ (rowAdd N E C wf).start jj idx a + (rowAdd N E C wf).window jj a ∧
        (rowAdd N E C wf).start jj idx a + (rowAdd N E C wf).window jj a < (⟨2, ![N, C]⟩ : Shape).size a := by
      refine Fin.forall_fin_two.mpr ⟨?_, ?_⟩
      · rw [rowAdd_start0, rowAdd_window0, hA]
        exact ⟨by omega, by show _ < ((N : Nat) : Int); omega⟩
      · rw [rowAdd_start1, rowAdd_window1, hB]
        exact ⟨by omega, by show _ < ((C : Nat) : Int); omega⟩
    rw [dif_pos hc]
    congr 1
    funext a
    refine Fin.ext ?_
    match a with
    | ⟨0, _⟩ =>
      show ((rowAdd N E C wf).start jj idx 0 + (rowAdd N E C wf).window jj 0).toNat = n.val
      rw [rowAdd_start0, rowAdd_window0, hA]; omega
    | ⟨1, _⟩ =>
      show ((rowAdd N E C wf).start jj idx 1 + (rowAdd N E C wf).window jj 1).toNat = j.val
      rw [rowAdd_start1, rowAdd_window1, hB]; omega

end Landing

/-- THE ROW SCATTER READ AT (n, j): the operand's entry plus the updates' entries (e, j) over the edges e whose index
    word, read signed, is n. -/
theorem scatterAdd_row_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (j : Fin C) :
    Ideal.hostScatterAdd (rowAdd N E C wf) x idx upd (ix2 n j)
      = x (ix2 n j) + ∑ e ∈ Finset.univ.filter (fun e : Fin E => (idx (ix2 e (0 : Fin 1))).toInt = (n.val : Int)),
          upd (ix2 e j) := by
  -- The operand's entry is common to both sides; what is left is the sum over the updates that land at (n, j).
  unfold Ideal.hostScatterAdd
  congr 1
  -- Both filtered sums become sums of an `if`, the left one split into the double sum over rows e and columns j'.
  rw [Finset.sum_filter, sum_idx2, Finset.sum_filter]
  refine Finset.sum_congr rfl fun e _ => ?_
  by_cases hA : (idx (ix2 e (0 : Fin 1))).toInt = (n.val : Int)
  · -- Row e scatters to row n: of its columns only j' = j lands at (n, j).
    rw [if_pos hA, Finset.sum_eq_single j]
    · rw [if_pos ((rowAdd_resultIdx_iff wf idx (ix2 e j) n j).mpr ⟨hA, rfl⟩)]
    · intro b _ hb
      rw [if_neg]
      intro h
      exact hb (Fin.ext ((rowAdd_resultIdx_iff wf idx (ix2 e b) n j).mp h).2)
    · intro h
      exact absurd (Finset.mem_univ j) h
  · -- Row e scatters elsewhere, or is dropped: none of its columns lands at (n, j).
    rw [if_neg hA]
    refine Finset.sum_eq_zero fun b _ => ?_
    rw [if_neg]
    intro h
    exact hA ((rowAdd_resultIdx_iff wf idx (ix2 e b) n j).mp h).1

end Cert.LibRowScatter

end
-- ==== Proof.PoolBridge.lean ====
/-
  The pooling numerator is the reference's segment sum.

  The kernel pools by a product with one-hot weights: weight (n, g) is 1 when node n's graph word, read signed, is g and 0
  otherwise (g below 128), so 0 + the sum over all nodes n of weight (n, g) * h (n, j) is 0 + the sum of h (n, j) over the
  nodes whose word is g. The reference scatters row n of h into row word (n) of the zero 128 x 256 array, adding, and
  drops a row whose word read signed is not in [0, 128): its entry (g, j) is 0 + the sum of h (n, j) over the nodes whose
  word, read signed, is g. The same number, for every graph word of every node, in range or not.
-/
import proofs.«415796_j6536940224753_1_alg».proof.Proof.Pool
import proofs.«415796_j6536940224753_1_alg».proof.Proof.Stages
import proofs.«415796_j6536940224753_1_alg».proof.Proof.LibRowScatter
import Idealize.ShloMosaic.Lib.StableHlo.Predicate

set_option maxRecDepth 16384

noncomputable section

namespace Cert.KernelIdeal.PoolBridge

open Cert.KernelIdeal Cert.KernelIdeal.Gen
open Idealize.ShloMosaic Idealize.ShloMosaic.TcCoe Idealize.ShloMosaic.ValueIdx Idealize.SL.Sem
open Idealize.ShloMosaic.StableHlo.Predicate (ij bcast_rows bcast_cols)

theorem ij_eq {n m : Nat} (p : Fin n) (q : Fin m) : ix2 p q = ij p q := by
  funext d; match d with | ⟨0, _⟩ => rfl | ⟨1, _⟩ => rfl

theorem ofFin_eq {n : Nat} (p : Fin n) : (Shape.Idx.ofFin p : (⟨1, ![n]⟩ : Shape).Idx) = ix1 p := by
  funext d; match d with | ⟨0, _⟩ => rfl

/-- The weight at (n, g): the bit "node n's graph word is g", read unsigned. -/
theorem onehot_apply (a2 : (⟨S50000, .i32⟩ : BufTy).Contents (Elt Ideal)) (n : Fin 50000) (g : Fin 128) :
    Stages.onehot (F := Ideal) a2 (ix2 n g)
      = (((IntOp.cmpi .eq (a2 (ix1 n)) (BitVec.ofNat 32 g.val)).toNat : ℝ) : EReal) := by
  have hA : broadcastInDim S50000x128 ![0, 1] bcast_S50000x1_S50000x128_0_1 (broadcastInDim S50000x1 ![0] bcast_S50000_S50000x1_0 a2) (ix2 n g)
      = a2 (ix1 n) := by
    rw [ij_eq, ← ofFin_eq]
    exact bcast_rows bcast_S50000_S50000x1_0 bcast_S50000x1_S50000x128_0_1 a2 n g
  have hB : broadcastInDim S50000x128 ![0, 1] bcast_S1x128_S50000x128_0_1 (broadcastInDim S1x128 ![1] bcast_S128_S1x128_1 (iotaInDim S128 32 0)) (ix2 n g)
      = BitVec.ofNat 32 g.val := by
    rw [ij_eq]
    exact bcast_cols (n := 50000) bcast_S128_S1x128_1 bcast_S1x128_S50000x128_0_1 (iotaInDim S128 32 0) n g
  unfold Stages.onehot
  show (((IntOp.cmpi .eq _ _).toNat : ℝ) : EReal) = _
  rw [hA, hB]

/-- The reference's scatter at (g, j): zero plus the sum of h (n, j) over the nodes whose word, read signed, is g. -/
theorem scatter_apply (a2 : (⟨S50000, .i32⟩ : BufTy).Contents (Elt Ideal))
    (h : (⟨2, ![50000, 256]⟩ : Shape).Idx → EReal) (g : Fin 128) (j : Fin 256) :
    Host.scatterAdd (F := Ideal) (φ := .f32) Cert.ReferenceIdeal.scatter_S128x256_S50000x1_S50000x256_1_0_0_1
        (Cert.ReferenceIdeal.ReadP.val_main_v81 (F := Ideal)) (Cert.ReferenceIdeal.ReadP.val_main_v82 (F := Ideal) a2) h (ix2 g j)
      = 0 + ∑ n ∈ Finset.univ.filter (fun n : Fin 50000 => (a2 (ix1 n)).toInt = (g.val : Int)), h (ix2 n j) := by
  simp only [Host.scatterAdd]
  rw [Ideal.hostScatterAdd_def]
  refine (Cert.LibRowScatter.scatterAdd_row_apply (N := 128) (E := 50000) (C := 256)
    Cert.ReferenceIdeal.scatter_S128x256_S50000x1_S50000x256_1_0_0_1.wf _ _ _ g j).trans ?_
  have hx : Cert.ReferenceIdeal.ReadP.val_main_v81 (F := Ideal) (ix2 g j) = 0 := by
    rw [Cert.ReferenceIdeal.ReadP.val_main_v81_apply, Cert.ReferenceIdeal.ReadP.val_main_cst_16_apply]
    exact Ideal.ofBits_zero_f32
  have hi : ∀ e : Fin 50000, Cert.ReferenceIdeal.ReadP.val_main_v82 (F := Ideal) a2 (ix2 e (0 : Fin 1)) = a2 (ix1 e) := fun e => by
    rw [Cert.ReferenceIdeal.ReadP.val_main_v82_apply]
    refine congrArg a2 ?_
    funext d; match d with | ⟨0, _⟩ => rfl
  rw [hx]
  refine congrArg (0 + ·) ?_
  refine Finset.sum_congr (Finset.filter_congr fun e _ => by rw [hi e]) fun _ _ => rfl

/-- THE BRIDGE: the weighted column sums over the one-hot weights are the reference's scatter of the rows. -/
theorem pool_eq_scatter (a2 : (⟨S50000, .i32⟩ : BufTy).Contents (Elt Ideal)) (h : (⟨2, ![50000, 256]⟩ : Shape).Idx → EReal) :
    Pool.poolSum (Stages.onehot (F := Ideal) a2) h
      = Host.scatterAdd (F := Ideal) (φ := .f32) Cert.ReferenceIdeal.scatter_S128x256_S50000x1_S50000x256_1_0_0_1
          (Cert.ReferenceIdeal.ReadP.val_main_v81 (F := Ideal)) (Cert.ReferenceIdeal.ReadP.val_main_v82 (F := Ideal) a2) h := by
  funext i
  obtain ⟨g, j, rfl⟩ : ∃ (g : Fin 128) (j : Fin 256), i = ix2 g j := ⟨i 0, i 1, eq_ix2 i⟩
  rw [Pool.poolSum_apply, scatter_apply]
  refine congrArg (0 + ·) ?_
  have hg : g.val < 2 ^ 31 := by have := g.isLt; omega
  rw [← Cert.LibColPool.sum_onehot_mul (fun n : Fin 50000 => a2 (ix1 n)) (fun n => h (ix2 n j)) g.val hg]
  refine Finset.sum_congr rfl fun n _ => ?_
  rw [onehot_apply]

end Cert.KernelIdeal.PoolBridge

end
-- ==== Proof.KernelValue.lean ====
/-
  What the kernel's program returns, at the extended reals: the reference's last stage of the launch arrays.

  The run ends with the result buffer at the fold of the host stretches and the three calls' write-backs. Read forwards:
  the first call leaves the product x * W1 (the reference's first dot), so the stretch after it leaves the reference's
  first layer; the second call leaves that layer times W2 (the reference's second dot), so the next stretch leaves the
  reference's second layer, beside the one-hot node-to-graph weights; the third call leaves the weighted column sums,
  which are the reference's segment sum of the second layer by graph word; and the last stretch divides by the clipped
  node counts as the reference does.
-/
import proofs.«415796_j6536940224753_1_alg».proof.Proof.KernelRun
import proofs.«415796_j6536940224753_1_alg».proof.Proof.Dense0
import proofs.«415796_j6536940224753_1_alg».proof.Proof.Dense1
import proofs.«415796_j6536940224753_1_alg».proof.Proof.Pool
import proofs.«415796_j6536940224753_1_alg».proof.Proof.PoolBridge
import proofs.«415796_j6536940224753_1_alg».proof.Proof.Stages
import proofs.«415796_j6536940224753_1_alg».proof.Proof.LibPlainAny

set_option maxRecDepth 16384

noncomputable section

namespace Cert.KernelIdeal.Value

open Cert.KernelIdeal Cert.KernelIdeal.Gen
open Idealize.ShloMosaic Idealize.ShloMosaic.TcCoe Idealize.ShloMosaic.ValueIdx Idealize.SL.Sem
open Cert.ReferenceIdeal.ReadP (val_main_v15 val_main_v47 val_main_v48 val_main_v80 val_main_v83 val_main_v92)

variable (m : (ℓ : Loc nD τ sig) → Buf (Elt Ideal) ℓ) (ρ : Dev nD → PrngReg)

/-- The row-by-row product is the reference's dot_general of the same two arrays: both are the sum over k. -/
theorem rowProd_eq (x : (⟨2, ![50000, 256]⟩ : Shape).Idx → EReal) (w : (⟨2, ![256, 256]⟩ : Shape).Idx → EReal) :
    Dense0.rowProd x w = val_main_v15 (F := Ideal) x w := by
  funext i
  obtain ⟨n, j, rfl⟩ : ∃ (n : Fin 50000) (j : Fin 256), i = ix2 n j := ⟨i 0, i 1, eq_ix2 i⟩
  rw [Dense0.rowProd_apply]
  unfold Cert.ReferenceIdeal.ReadP.val_main_v15
  exact (Cert.LibPlainAny.dotGeneral_plain_any 50000 256 256 x w n j).symm

/-- After the first call its output array holds the reference's first product. -/
theorem W3_v15 (c : Dev nD) : W3 m ρ c (Proc.devRef .tc main_v15)
    = val_main_v15 (F := Ideal) (m ((c : Thread nD τ).loc main_arg0)) (m ((c : Thread nD τ).loc main_arg3)) := by
  refine (W3_arr m ρ c 2).trans ?_
  rw [Dense0.final (V2 m ρ) c]
  show Dense0.rowProd (W2 m ρ c (Proc.devRef .tc main_arg0)) (W2 m ρ c (Proc.devRef .tc main_arg3)) = _
  rw [Stages.W2_arg0, Stages.W2_arg3, rowProd_eq]

/-- After the second call its output array holds the reference's second product. -/
theorem W6_v48 (c : Dev nD) : W6 m ρ c (Proc.devRef .tc main_v48)
    = val_main_v48 (F := Ideal) (m ((c : Thread nD τ).loc main_arg0)) (m ((c : Thread nD τ).loc main_arg1)) (m ((c : Thread nD τ).loc main_arg3))
        (m ((c : Thread nD τ).loc main_arg4)) (m ((c : Thread nD τ).loc main_arg5)) := by
  refine (W6_arr m ρ c 2).trans ?_
  rw [Dense1.final (V5 m ρ) c]
  show Dense0.rowProd (W5 m ρ c (Proc.devRef .tc main_v47)) (W5 m ρ c (Proc.devRef .tc main_arg5)) = _
  rw [Stages.W5_v47 m ρ c _ _ (W3_v15 m ρ c), Stages.W5_arg5, Stages.W3_arg5, Stages.W2_arg5, rowProd_eq]
  rfl

/-- After the third call its output array holds the reference's segment sum of the second layer. -/
theorem W10_v88 (c : Dev nD) : W10 m ρ c (Proc.devRef .tc main_v88)
    = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  rw [Pool.final (V9 m ρ) c]
  show Pool.poolSum (W9 m ρ c (Proc.devRef .tc main_v87)) (W9 m ρ c (Proc.devRef .tc main_v80)) = _
  rw [Stages.W9_v87, Stages.W9_v80 m ρ c _ _ _ _ (W6_v48 m ρ c), PoolBridge.pool_eq_scatter]
  rfl

/-- The result buffer ends at the reference's last stage of the launch arrays. -/
theorem result_eq (c : Dev nD) : W11 m ρ c (Proc.devRef .tc main_v97)
    = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Stages.W11_v97 m ρ c _ _ _ _ _ (W10_v88 m ρ c)

/-- THE KERNEL'S RUN, READ: every weakly fair execution terminates, nothing faulting, with the result at the reference's
    last stage of the launch arrays and the arguments unchanged. -/
theorem run : θ_run defs (onTc (τ := τ) (main (F := Ideal))) ⟨m, fun _ => 0, ρ⟩ (fun r => ∀ c : Dev nD,
      r.2.mem ((c.tc : Thread nD τ).loc main_v97) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (Cert.KernelIdeal.GenV.run_result m ρ)

end Cert.KernelIdeal.Value

end
-- ==== Proof.lean ====
/-
  Two graph-convolution layers and a mean pool over 128 graphs: the kernel's program against the plain jnp reference,
  equal on the extended reals.

  Both programs compute, from the node features x, the edge list, the nodes' graph words and two weight-bias pairs:
  the edge lists with self loops, the inverse square roots of the degrees, then twice
      relu (segment-sum by destination of (product row at source) * (the two ends' inverse root degrees) + bias),
  the product being features times weight, and last the per-graph sums of the second layer's rows divided by the node
  counts clipped below at one. The kernel's program differs in three places, each a pallas_call, and each leaves exactly the
  array the reference's operation leaves:
    * the two dense products run block by block over 5000 rows with the operands cut to bf16 — a change of format is the
      identity on the extended reals, and both are the sum over k of x (n, k) * W (k, j);
    * the per-graph sums run as a product with one-hot weights, accumulated over ten blocks of nodes into one output block —
      0 * x = 0 and 1 * x = x for every extended real, sums re-associate freely, so it is the sum of the rows whose graph
      word is g, which is what the reference's scatter with addition leaves (out-of-range words dropped on both sides).
  Everything else is the same host operation on both sides and is carried along unopened. No law used asks for a finite
  input, so the precondition is never opened.

  The frames of the two kernel programs are the generated ones; the reference's frame is its run with the result dropped.
  preserves: the ideal pass rewrote nothing, so the claim is True.
-/
import proofs.«415796_j6536940224753_1_alg».proof.Defs
import proofs.«415796_j6536940224753_1_alg».proof.Proof.Gen.Kernel
import proofs.«415796_j6536940224753_1_alg».proof.Proof.Gen.Kernel.Frame
import proofs.«415796_j6536940224753_1_alg».proof.Proof.Gen.KernelIdeal
import proofs.«415796_j6536940224753_1_alg».proof.Proof.Gen.KernelIdeal.Frame
import proofs.«415796_j6536940224753_1_alg».proof.Proof.Gen.ReferenceIdeal
import proofs.«415796_j6536940224753_1_alg».proof.Proof.Gen.Pre_finite_inputs
import proofs.«415796_j6536940224753_1_alg».proof.Proof.RefRun
import proofs.«415796_j6536940224753_1_alg».proof.Proof.RefRead
import proofs.«415796_j6536940224753_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both runs end, from memories that agree on the seven arguments, with the result at the reference's last stage of those
    arguments: the kernel's by its run read stretch by stretch, the reference's by its own run, whose composed term is that
    stage. -/
theorem algebraic : Cert.algebraic_KernelIdeal_ReferenceIdeal := by
  intro m ρ m' ρ' _ hagree
  refine ⟨fun c => Cert.ReferenceIdeal.ReadP.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Value.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v92_eq, (hagree c).1, (hagree c).2.1, (hagree c).2.2.1, (hagree c).2.2.2.1,
    (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
